-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x256x256 : Shape := ⟨4, ![8, 128, 256, 256]⟩
abbrev S128 : Shape := ⟨1, ![128]⟩
abbrev S8x256x256 : Shape := ⟨3, ![8, 256, 256]⟩
abbrev S8x1x256x256 : Shape := ⟨4, ![8, 1, 256, 256]⟩
abbrev S_ : Shape := ⟨0, ![]⟩

class Facts : Prop where
  bcast_S_S8x128x256x256 : S_.BroadcastsInDim S8x128x256x256 (![] : Fin 0 → Fin S8x128x256x256.rank)
  reducesTo_S8x128x256x256_S_d0_1_2_3 : S8x128x256x256.ReducesTo [0, 1, 2, 3] S_
  h_S_ : 0 < S_.numel
  bcast_S_S128 : S_.BroadcastsInDim S128 (![] : Fin 0 → Fin S128.rank)
  reducesTo_S128_S_d0 : S128.ReducesTo [0] S_
  bcast_S_S8x1x256x256 : S_.BroadcastsInDim S8x1x256x256 (![] : Fin 0 → Fin S8x1x256x256.rank)
  reducesTo_S8x1x256x256_S_d0_1_2_3 : S8x1x256x256.ReducesTo [0, 1, 2, 3] S_

variable [Facts]

def fn_part1 {F : FTy → Type} [FloatOps F] (main_v13 : IVec S_ 1) (main_v16 : IVec S8x1x256x256 1) : IVec S_ 1 :=
  let main_c_5 : IVec S_ 1 := constantI S_ 1 1#1
  let main_v17 : IVec S_ 1 := (fun x v => Host.reduce IntOp.andi x v reducesTo_S8x1x256x256_S_d0_1_2_3 h_S_) main_v16 main_c_5
  let main_v18 : IVec S_ 1 := andi main_v13 main_v17
  main_v18

def fn {F : FTy → Type} [FloatOps F] (main_arg0 : FVec F S8x128x256x256 .f32) (main_arg1 : FVec F S8x128x256x256 .f32) (main_arg2 : FVec F S128 .f32) (main_arg3 : IVec S8x256x256 1) (main_arg4 : FVec F S8x1x256x256 .f32) : IVec S_ 1 :=
  let main_v0 : FVec F S8x128x256x256 .f32 := Host.absf main_arg0
  let main_cst : FVec F S_ .f32 := constant S_ .f32 0x7F800000#32
  let main_v1 : FVec F S8x128x256x256 .f32 := broadcastInDim S8x128x256x256 ![] bcast_S_S8x128x256x256 main_cst
  let main_v2 : IVec S8x128x256x256 1 := cmpf .olt main_v0 main_v1
  let main_c : IVec S_ 1 := constantI S_ 1 1#1
  let main_v3 : IVec S_ 1 := (fun x v => Host.reduce IntOp.andi x v reducesTo_S8x128x256x256_S_d0_1_2_3 h_S_) main_v2 main_c
  let main_v4 : FVec F S8x128x256x256 .f32 := Host.absf main_arg1
  let main_cst_0 : FVec F S_ .f32 := constant S_ .f32 0x7F800000#32
  let main_v5 : FVec F S8x128x256x256 .f32 := broadcastInDim S8x128x256x256 ![] bcast_S_S8x128x256x256 main_cst_0
  let main_v6 : IVec S8x128x256x256 1 := cmpf .olt main_v4 main_v5
  let main_c_1 : IVec S_ 1 := constantI S_ 1 1#1
  let main_v7 : IVec S_ 1 := (fun x v => Host.reduce IntOp.andi x v reducesTo_S8x128x256x256_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S8x1x256x256 .f32 := Host.absf main_arg4
  let main_cst_4 : FVec F S_ .f32 := constant S_ .f32 0x7F800000#32
  let main_v15 : FVec F S8x1x256x256 .f32 := broadcastInDim S8x1x256x256 ![] bcast_S_S8x1x256x256 main_cst_4
  let main_v16 : IVec S8x1x256x256 1 := cmpf .olt main_v14 main_v15
  fn_part1 (F := F) main_v13 main_v16
-- ==== Kernel.lean ====
abbrev S8x128x256x256 : Shape := ⟨4, ![8, 128, 256, 256]⟩
abbrev S128 : Shape := ⟨1, ![128]⟩
abbrev S8x256x256 : Shape := ⟨3, ![8, 256, 256]⟩
abbrev S8x1x256x256 : Shape := ⟨4, ![8, 1, 256, 256]⟩
abbrev S_ : Shape := ⟨0, ![]⟩
abbrev S8 : Shape := ⟨1, ![8]⟩
abbrev S1x128x16x256 : Shape := ⟨4, ![1, 128, 16, 256]⟩
abbrev S1x16x256 : Shape := ⟨3, ![1, 16, 256]⟩
abbrev S128x1x1 : Shape := ⟨3, ![128, 1, 1]⟩
abbrev S128x16x256 : Shape := ⟨3, ![128, 16, 256]⟩
abbrev S16x256 : Shape := ⟨2, ![16, 256]⟩

abbrev nBuf : Space → Nat
  | .hbm => 41
  | .vmem => 9
  | .smem => 0
  | _ => 0

abbrev bufTy : (tb : Table) → Fin (tcTables nBuf tb) → BufTy
  | .hbm, ⟨0, _⟩ => ⟨S8x128x256x256, .f32⟩
  | .hbm, ⟨1, _⟩ => ⟨S8x128x256x256, .f32⟩
  | .hbm, ⟨2, _⟩ => ⟨S128, .f32⟩
  | .hbm, ⟨3, _⟩ => ⟨S8x256x256, .i1⟩
  | .hbm, ⟨4, _⟩ => ⟨S8x1x256x256, .f32⟩
  | .hbm, ⟨5, _⟩ => ⟨S8x256x256, .f32⟩
  | .hbm, ⟨6, _⟩ => ⟨S_, .f32⟩
  | .hbm, ⟨7, _⟩ => ⟨S8x256x256, .f32⟩
  | .hbm, ⟨8, _⟩ => ⟨S8x256x256, .i1⟩
  | .hbm, ⟨9, _⟩ => ⟨S8x256x256, .i1⟩
  | .hbm, ⟨10, _⟩ => ⟨S8x256x256, .i1⟩
  | .hbm, ⟨11, _⟩ => ⟨S8x256x256, .f32⟩
  | .hbm, ⟨12, _⟩ => ⟨S8x256x256, .i32⟩
  | .hbm, ⟨13, _⟩ => ⟨S_, .i32⟩
  | .hbm, ⟨14, _⟩ => ⟨S8, .i32⟩
  | .hbm, ⟨15, _⟩ => ⟨S8, .f32⟩
  | .hbm, ⟨16, _⟩ => ⟨S8x256x256, .f32⟩
  | .hbm, ⟨17, _⟩ => ⟨S_, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .i1⟩
  | .hbm, ⟨26, _⟩ => ⟨S8, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .local _ .vmem, ⟨0, _⟩ => ⟨S128, .f32⟩
  | .local _ .vmem, ⟨1, _⟩ => ⟨S1x128x16x256, .f32⟩
  | .local _ .vmem, ⟨2, _⟩ => ⟨S1x128x16x256, .f32⟩
  | .local _ .vmem, ⟨3, _⟩ => ⟨S1x128x16x256, .f32⟩
  | .local _ .vmem, ⟨4, _⟩ => ⟨S1x128x16x256, .f32⟩
  | .local _ .vmem, ⟨5, _⟩ => ⟨S1x16x256, .f32⟩
  | .local _ .vmem, ⟨6, _⟩ => ⟨S1x16x256, .f32⟩
  | .local _ .vmem, ⟨7, _⟩ => ⟨S1x16x256, .f32⟩
  | .local _ .vmem, ⟨8, _⟩ => ⟨S1x16x256, .f32⟩
  | _, _ => ⟨S8x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x1x256x256_S8x256x256 : S8x1x256x256.ShapeCasts S8x256x256
  bcast_S_S8x256x256 : S_.BroadcastsInDim S8x256x256 (![] : Fin 0 → Fin S8x256x256.rank)
  natLt_1_32 : 1 < 32
  reducesTo_S8x256x256_S8_d1_2 : S8x256x256.ReducesTo [1, 2] S8
  h_S_ : 0 < S_.numel
  inb_S128_S128_0 : ∀ a, (![0] : Fin 1 → Nat) a + S128.size a ≤ S128.size a
  h_S128 : 0 < S128.numel
  shapeCasts_S128_S128x1x1 : S128.ShapeCasts S128x1x1
  inb_S1x128x16x256_S1x128x16x256_0_0_0_0 : ∀ a, (![0, 0, 0, 0] : Fin 4 → Nat) a + S1x128x16x256.size a ≤ S1x128x16x256.size a
  h_S1x128x16x256 : 0 < S1x128x16x256.numel
  shapeCasts_S1x128x16x256_S128x16x256 : S1x128x16x256.ShapeCasts S128x16x256
  broadcasts_S128x1x1_S128x16x256 : S128x1x1.Broadcasts S128x16x256
  reduces_S128x16x256_S16x256 : S128x16x256.Reduces [0] S16x256
  shapeCasts_S16x256_S1x16x256 : S16x256.ShapeCasts S1x16x256
  broadcasts_S1x16x256_S128x16x256 : S1x16x256.Broadcasts S128x16x256
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  bcast_S_S8 : S_.BroadcastsInDim S8 (![] : Fin 0 → Fin S8.rank)
  reducesTo_S8_S_d0 : S8.ReducesTo [0] S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128.size a ≤ S128.size a
  hwx0_0 : ∀ i : grid0.Coords, EltTy.bits .f32 = 32 ∨ (Rect.block (s := S128) S128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x16x256.size a ≤ S8x128x256x256.size a
  hwx0_1 : ∀ i : grid0.Coords, EltTy.bits .f32 = 32 ∨ (Rect.block (s := S8x128x256x256) S1x128x16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x16x256.size a ≤ S8x128x256x256.size a
  hwx0_2 : ∀ i : grid0.Coords, EltTy.bits .f32 = 32 ∨ (Rect.block (s := S8x128x256x256) S1x128x16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x256.size a ≤ S8x256x256.size a
  hwx0_3 : ∀ i : grid0.Coords, EltTy.bits .f32 = 32 ∨ (Rect.block (s := S8x256x256) S1x16x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256.size a ≤ S8x256x256.size a
  hwx0_4 : ∀ i : grid0.Coords, EltTy.bits .f32 = 32 ∨ (Rect.block (s := S8x256x256) S1x16x256.size (cc0_transform_4 i) (hinb0_4 i)).WholeWords (EltTy.packing .f32)

variable [Facts₀]

abbrev win0_0 : Pipeline.Window sig grid0 :=
  Pipeline.Window.ofSpec (Memref.whole main_arg2) S128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x128x16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x16x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x16x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x128x256x256 : Shape := ⟨4, ![8, 128, 256, 256]⟩
abbrev S128 : Shape := ⟨1, ![128]⟩
abbrev S8x256x256 : Shape := ⟨3, ![8, 256, 256]⟩
abbrev S8x1x256x256 : Shape := ⟨4, ![8, 1, 256, 256]⟩
abbrev S_ : Shape := ⟨0, ![]⟩
abbrev S8 : Shape := ⟨1, ![8]⟩
abbrev S8x256x256x128 : Shape := ⟨4, ![8, 256, 256, 128]⟩
abbrev S1x1x1x128 : Shape := ⟨4, ![1, 1, 1, 128]⟩
abbrev S8x256x256x1 : Shape := ⟨4, ![8, 256, 256, 1]⟩

abbrev nBuf : Space → Nat
  | .hbm => 105
  | .vmem => 0
  | .smem => 0
  | _ => 0

abbrev bufTy : (tb : Table) → Fin (tcTables nBuf tb) → BufTy
  | .hbm, ⟨0, _⟩ => ⟨S8x128x256x256, .f32⟩
  | .hbm, ⟨1, _⟩ => ⟨S8x128x256x256, .f32⟩
  | .hbm, ⟨2, _⟩ => ⟨S128, .f32⟩
  | .hbm, ⟨3, _⟩ => ⟨S8x256x256, .i1⟩
  | .hbm, ⟨4, _⟩ => ⟨S8x1x256x256, .f32⟩
  | .hbm, ⟨5, _⟩ => ⟨S8x256x256, .f32⟩
  | .hbm, ⟨6, _⟩ => ⟨S_, .f32⟩
  | .hbm, ⟨7, _⟩ => ⟨S8x256x256, .f32⟩
  | .hbm, ⟨8, _⟩ => ⟨S8x256x256, .i1⟩
  | .hbm, ⟨9, _⟩ => ⟨S8x256x256, .i1⟩
  | .hbm, ⟨10, _⟩ => ⟨S8x256x256, .i1⟩
  | .hbm, ⟨11, _⟩ => ⟨S8x256x256, .i32⟩
  | .hbm, ⟨12, _⟩ => ⟨S_, .i32⟩
  | .hbm, ⟨13, _⟩ => ⟨S8, .i32⟩
  | .hbm, ⟨14, _⟩ => ⟨S8, .f32⟩
  | .hbm, ⟨15, _⟩ => ⟨S8x256x256x128, .f32⟩
  | .hbm, ⟨16, _⟩ => ⟨S8x256x256x128, .f32⟩
  | .hbm, ⟨17, _⟩ => ⟨S1x1x1x128, .f32⟩
  | .hbm, ⟨18, _⟩ => ⟨S8x256x256x128, .f32⟩
  | .hbm, ⟨19, _⟩ => ⟨S8x256x256x128, .f32⟩
  | .hbm, ⟨20, _⟩ => ⟨S8x256x256x128, .f32⟩
  | .hbm, ⟨21, _⟩ => ⟨S_, .f32⟩
  | .hbm, ⟨22, _⟩ => ⟨S8x256x256, .f32⟩
  | .hbm, ⟨23, _⟩ => ⟨S8x256x256x1, .f32⟩
  | .hbm, ⟨24, _⟩ => ⟨S8x256x256x1, .f32⟩
  | .hbm, ⟨25, _⟩ => ⟨S_, .f32⟩
  | .hbm, ⟨26, _⟩ => ⟨S8x256x256x1, .f32⟩
  | .hbm, ⟨27, _⟩ => ⟨S8x256x256x1, .f32⟩
  | .hbm, ⟨28, _⟩ => ⟨S8x256x256x128, .f32⟩
  | .hbm, ⟨29, _⟩ => ⟨S8x256x256x128, .f32⟩
  | .hbm, ⟨30, _⟩ => ⟨S8x256x256x128, .f32⟩
  | .hbm, ⟨31, _⟩ => ⟨S_, .f32⟩
  | .hbm, ⟨32, _⟩ => ⟨S8x256x256, .f32⟩
  | .hbm, ⟨33, _⟩ => ⟨S8x256x256x1, .f32⟩
  | .hbm, ⟨34, _⟩ => ⟨S8x256x256x1, .f32⟩
  | .hbm, ⟨35, _⟩ => ⟨S_, .f32⟩
  | .hbm, ⟨36, _⟩ => ⟨S8x256x256x1, .f32⟩
  | .hbm, ⟨37, _⟩ => ⟨S8x256x256x1, .f32⟩
  | .hbm, ⟨38, _⟩ => ⟨S8x256x256x128, .f32⟩
  | .hbm, ⟨39, _⟩ => ⟨S8x256x256x128, .f32⟩
  | .hbm, ⟨40, _⟩ => ⟨S_, .f32⟩
  | .hbm, ⟨41, _⟩ => ⟨S8x256x256x128, .f32⟩
  | .hbm, ⟨42, _⟩ => ⟨S8x256x256x128, .f32⟩
  | .hbm, ⟨43, _⟩ => ⟨S_, .f32⟩
  | .hbm, ⟨44, _⟩ => ⟨S8x256x256, .f32⟩
  | .hbm, ⟨45, _⟩ => ⟨S_, .f32⟩
  | .hbm, ⟨46, _⟩ => ⟨S8x256x256, .f32⟩
  | .hbm, ⟨47, _⟩ => ⟨S8x256x256, .f32⟩
  | .hbm, ⟨48, _⟩ => ⟨S8x256x256x1, .f32⟩
  | .hbm, ⟨49, _⟩ => ⟨S8x256x256x128, .f32⟩
  | .hbm, ⟨50, _⟩ => ⟨S8x256x256x128, .f32⟩
  | .hbm, ⟨51, _⟩ => ⟨S8x256x256x128, .f32⟩
  | .hbm, ⟨52, _⟩ => ⟨S_, .f32⟩
  | .hbm, ⟨53, _⟩ => ⟨S8x256x256, .f32⟩
  | .hbm, ⟨54, _⟩ => ⟨S8x256x256x1, .f32⟩
  | .hbm, ⟨55, _⟩ => ⟨S8x256x256x128, .f32⟩
  | .hbm, ⟨56, _⟩ => ⟨S8x256x256x128, .f32⟩
  | .hbm, ⟨57, _⟩ => ⟨S_, .f32⟩
  | .hbm, ⟨58, _⟩ => ⟨S8x256x256x128, .f32⟩
  | .hbm, ⟨59, _⟩ => ⟨S8x256x256x128, .f32⟩
  | .hbm, ⟨60, _⟩ => ⟨S_, .f32⟩
  | .hbm, ⟨61, _⟩ => ⟨S8x256x256, .f32⟩
  | .hbm, ⟨62, _⟩ => ⟨S_, .f32⟩
  | .hbm, ⟨63, _⟩ => ⟨S8x256x256, .f32⟩
  | .hbm, ⟨64, _⟩ => ⟨S8x256x256, .f32⟩
  | .hbm, ⟨65, _⟩ => ⟨S8x256x256x1, .f32⟩
  | .hbm, ⟨66, _⟩ => ⟨S8x256x256x128, .f32⟩
  | .hbm, ⟨67, _⟩ => ⟨S8x256x256x128, .f32⟩
  | .hbm, ⟨68, _⟩ => ⟨S8x256x256x128, .f32⟩
  | .hbm, ⟨69, _⟩ => ⟨S_, .f32⟩
  | .hbm, ⟨70, _⟩ => ⟨S8x256x256, .f32⟩
  | .hbm, ⟨71, _⟩ => ⟨S8x256x256x1, .f32⟩
  | .hbm, ⟨72, _⟩ => ⟨S8x256x256x1, .f32⟩
  | .hbm, ⟨73, _⟩ => ⟨S8x256x256x128, .f32⟩
  | .hbm, ⟨74, _⟩ => ⟨S8x256x256x128, .f32⟩
  | .hbm, ⟨75, _⟩ => ⟨S8x256x256x128, .f32⟩
  | .hbm, ⟨76, _⟩ => ⟨S_, .f32⟩
  | .hbm, ⟨77, _⟩ => ⟨S8x256x256, .f32⟩
  | .hbm, ⟨78, _⟩ => ⟨S8x256x256, .f32⟩
  | .hbm, ⟨79, _⟩ => ⟨S8x256x256, .f32⟩
  | .hbm, ⟨80, _⟩ => ⟨S8x256x256, .f32⟩
  | .hbm, ⟨81, _⟩ => ⟨S_, .f32⟩
  | .hbm, ⟨82, _⟩ => ⟨S8, .f32⟩
  | .hbm, ⟨83, _⟩ => ⟨S_, .f32⟩
  | .hbm, ⟨84, _⟩ => ⟨S8, .f32⟩
  | .hbm, ⟨85, _⟩ => ⟨S8, .f32⟩
  | .hbm, ⟨86, _⟩ => ⟨S8, .f32⟩
  | .hbm, ⟨87, _⟩ => ⟨S_, .f32⟩
  | .hbm, ⟨88, _⟩ => ⟨S8, .f32⟩
  | .hbm, ⟨89, _⟩ => ⟨S8, .i1⟩
  | .hbm, ⟨90, _⟩ => ⟨S8, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S8, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .i1⟩
  | .hbm, ⟨103, _⟩ => ⟨S_, .f32⟩
  | .hbm, ⟨104, _⟩ => ⟨S_, .f32⟩
  | _, _ => ⟨S8x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_call0_cst_0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_cst_1 : Ref sig .tc := ⟨.hbm, 69, rfl⟩
abbrev main_call0_v7 : Ref sig .tc := ⟨.hbm, 70, rfl⟩
abbrev main_call0_v8 : Ref sig .tc := ⟨.hbm, 71, rfl⟩
abbrev main_call0_v9 : Ref sig .tc := ⟨.hbm, 72, rfl⟩
abbrev main_call0_v10 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_12 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_cst_14 : Ref sig .tc := ⟨.hbm, 93, rfl⟩
abbrev main_v58 : Ref sig .tc := ⟨.hbm, 94, rfl⟩
abbrev main_v59 : Ref sig .tc := ⟨.hbm, 95, rfl⟩
abbrev main_cst_15 : Ref sig .tc := ⟨.hbm, 96, rfl⟩
abbrev main_v60 : Ref sig .tc := ⟨.hbm, 97, rfl⟩
abbrev main_v61 : Ref sig .tc := ⟨.hbm, 98, rfl⟩
abbrev main_cst_16 : Ref sig .tc := ⟨.hbm, 99, rfl⟩
abbrev main_v62 : Ref sig .tc := ⟨.hbm, 100, rfl⟩
abbrev main_cst_17 : Ref sig .tc := ⟨.hbm, 101, rfl⟩
abbrev main_v63 : Ref sig .tc := ⟨.hbm, 102, rfl⟩
abbrev main_cst_18 : Ref sig .tc := ⟨.hbm, 103, rfl⟩
abbrev main_v64 : Ref sig .tc := ⟨.hbm, 104, rfl⟩

abbrev nD : Nat := 1
abbrev τ : Topo := Topo.v7x

variable {F : FTy → Type} [FloatOps F]

class Facts₀ : Prop where
  shapeCasts_S8x1x256x256_S8x256x256 : S8x1x256x256.ShapeCasts S8x256x256
  bcast_S_S8x256x256 : S_.BroadcastsInDim S8x256x256 (![] : Fin 0 → Fin S8x256x256.rank)
  natLt_1_32 : 1 < 32
  reducesTo_S8x256x256_S8_d1_2 : S8x256x256.ReducesTo [1, 2] S8
  h_S_ : 0 < S_.numel
  transposes_S8x128x256x256_S8x256x256x128_0_2_3_1 : S8x128x256x256.Transposes [0, 2, 3, 1] S8x256x256x128
  bcast_S128_S1x1x1x128_3 : S128.BroadcastsInDim S1x1x1x128 (![3] : Fin 1 → Fin S1x1x1x128.rank)
  bcast_S1x1x1x128_S8x256x256x128_0_1_2_3 : S1x1x1x128.BroadcastsInDim S8x256x256x128 (![0, 1, 2, 3] : Fin 4 → Fin S8x256x256x128.rank)
  reducesTo_S8x256x256x128_S8x256x256_d3 : S8x256x256x128.ReducesTo [3] S8x256x256
  bcast_S8x256x256_S8x256x256x1_0_1_2 : S8x256x256.BroadcastsInDim S8x256x256x1 (![0, 1, 2] : Fin 3 → Fin S8x256x256x1.rank)
  bcast_S_S8x256x256x1 : S_.BroadcastsInDim S8x256x256x1 (![] : Fin 0 → Fin S8x256x256x1.rank)
  bcast_S8x256x256x1_S8x256x256x128_0_1_2_3 : S8x256x256x1.BroadcastsInDim S8x256x256x128 (![0, 1, 2, 3] : Fin 4 → Fin S8x256x256x128.rank)
  bcast_S_S8x256x256x128 : S_.BroadcastsInDim S8x256x256x128 (![] : Fin 0 → Fin S8x256x256x128.rank)
  bcast_S_S8 : S_.BroadcastsInDim S8 (![] : Fin 0 → Fin S8.rank)
  reducesTo_S8_S_d0 : S8.ReducesTo [0] S_

variable [Facts₀]

class Facts : Prop extends Facts₀ where

variable [Facts]
-- ==== Proof.Spec.lean ====
/-
  The pixelwise loss both programs compute, as one function of the argument arrays.

  For one pixel, with `s` and `t` its two channel vectors (128 channels; `t` already has the centre subtracted):
  each vector is divided by `max (‖·‖₂) ε` and then by its temperature; the teacher's scaled vector goes through a
  softmax, the student's through a log-softmax (both shifted by the channel maximum, which is taken as a fold of
  `max` starting from the pattern of -∞), and the loss is minus the sum over the channels of the product. The masked
  loss at a pixel is that number times the pixel's entry of the 0/1 mask. Nothing here is evaluated: ε, the two
  temperatures and -∞ stay the f32 patterns both programs print.
-/
import Idealize.ShloMosaic.PureOps.Ideal.Laws
import Idealize.ShloMosaic.Lib.ValueIdx

noncomputable section

open scoped BigOperators
open Idealize.ShloMosaic Idealize.ShloMosaic.ValueIdx

namespace Cert.Dino

/-- The normalisation's floor, the two temperatures and the reductions' starting value, as the words both programs carry. -/
abbrev eps : EReal := Ideal.ofBits .f32 0x2B8CBCCC#32
abbrev tauT : EReal := Ideal.ofBits .f32 0x3D23D70A#32
abbrev tauS : EReal := Ideal.ofBits .f32 0x3DCCCCCD#32
abbrev negInf : EReal := Ideal.ofBits .f32 0xFF800000#32

/-- A channel vector divided by its clamped Euclidean norm, then by a temperature. -/
def scaled (τ : EReal) (x : Fin 128 → EReal) (d : Fin 128) : EReal :=
  Ideal.div (Ideal.div (x d) (max (Ideal.sqrt (∑ k : Fin 128, x k * x k)) eps)) τ

/-- The maximum over the channels: the fold of `max` from -∞'s pattern. -/
def chanMax (u : Fin 128 → EReal) : EReal := (Finset.univ : Finset (Fin 128)).fold max negInf u

/-- A vector minus its channel maximum. -/
def shifted (u : Fin 128 → EReal) (d : Fin 128) : EReal := u d - chanMax u

/-- The normaliser of the shifted vector: the sum of the exponentials. -/
def expSum (u : Fin 128 → EReal) : EReal := ∑ k : Fin 128, Ideal.exp (shifted u k)

def softmax (u : Fin 128 → EReal) (d : Fin 128) : EReal := Ideal.div (Ideal.exp (shifted u d)) (expSum u)

def logSoftmax (u : Fin 128 → EReal) (d : Fin 128) : EReal := shifted u d - Ideal.log (expSum u)

/-- One pixel's loss: minus the cross term of the teacher's softmax and the student's log-softmax. -/
def pixLoss (s t : Fin 128 → EReal) : EReal :=
  -(∑ d : Fin 128, softmax (scaled tauT t) d * logSoftmax (scaled tauS s) d)

/-- The fold never falls below its starting value, so taking `max` with that value once more changes nothing. -/
theorem max_negInf_chanMax (u : Fin 128 → EReal) : max negInf (chanMax u) = chanMax u :=
  max_eq_right ((Finset.le_fold_max negInf).2 (Or.inl le_rfl))

/-- Subtracting from zero is negation on the extended reals. -/
theorem zero_sub_ereal (a : EReal) : (0 : EReal) - a = -a := by
  rw [sub_eq_add_neg, zero_add]

/-- The masked loss over the whole batch: at pixel `(b, h, w)` the loss of the two channel columns there (the
    teacher's with the centre subtracted channel by channel) times the mask's entry. -/
def maskedLoss (x0 x1 : (⟨4, ![8, 128, 256, 256]⟩ : Shape).Idx → EReal) (x2 : (⟨1, ![128]⟩ : Shape).Idx → EReal)
    (vm : (⟨3, ![8, 256, 256]⟩ : Shape).Idx → EReal) : (⟨3, ![8, 256, 256]⟩ : Shape).Idx → EReal := fun i =>
  pixLoss (fun d => x0 (ix4 (i 0) d (i 1) (i 2))) (fun d => x1 (ix4 (i 0) d (i 1) (i 2)) - x2 (ix1 d)) * vm i

end Cert.Dino

end
-- ==== Proof.KernelPix.lean ====
/-
  One grid point's block of the kernel, read at a pixel.

  The body loads the centre (128 channels), the student's and the teacher's blocks (1 × 128 × 16 × 256: all channels of
  16 rows of one image) and the mask's block (1 × 16 × 256), and stores one 1 × 16 × 256 block. Every reduction of the body
  runs over the channel axis, so the stored value at row `h`, column `w` depends on the two channel columns at `(h, w)`
  only: it is the pixel loss of those columns (the teacher's with the centre subtracted) times the mask's entry there.
  The layout steps (a unit batch axis dropped or added, a row or the centre broadcast along the other axes, a sum or a
  maximum over the channel axis) are each read at an index written by its coordinates; the arithmetic between them
  is pointwise.
-/
import proofs.«110116_j62036507623554_1_alg».proof.Proof.Gen.KernelIdeal.Skeleton
import proofs.«110116_j62036507623554_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators
open Idealize.ShloMosaic Idealize.ShloMosaic.ValueIdx

namespace Cert.KernelIdeal.Pix

open Cert.KernelIdeal Cert.KernelIdeal.Gen

/-! ## The layout steps at an index -/

section Layout
variable {α : Type}

/-- A block without its unit batch axis: `(d, h, w)` reads `(0, d, h, w)`. -/
theorem dropBatch_apply (x : S1x128x16x256.Idx → α) (hc : S1x128x16x256.ShapeCasts S128x16x256) (d : Fin 128) (h : Fin 16)
    (w : Fin 256) : shapeCast S128x16x256 x hc (ix3 d h w) = x (ix4 (0 : Fin 1) d h w) :=
  shapeCast_1abc_abc_apply x hc d h w

/-- A 16 × 256 sheet given a leading unit axis. -/
theorem addUnit_apply (x : S16x256.Idx → α) (hc : S16x256.ShapeCasts S1x16x256) (u : Fin 1) (h : Fin 16) (w : Fin 256) :
    shapeCast S1x16x256 x hc (ix3 u h w) = x (ix2 h w) :=
  shapeCast_ab_1ab_apply x hc u h w

/-- … and the unit axis dropped again. -/
theorem dropUnit_apply (x : S1x16x256.Idx → α) (hc : S1x16x256.ShapeCasts S16x256) (h : Fin 16) (w : Fin 256) :
    shapeCast S16x256 x hc (ix2 h w) = x (ix3 (0 : Fin 1) h w) :=
  shapeCast_1ab_ab_apply x hc h w

/-- One sheet repeated along the channel axis. -/
theorem sheetBcast_apply (x : S1x16x256.Idx → α) (hb : S1x16x256.Broadcasts S128x16x256) (d : Fin 128) (h : Fin 16) (w : Fin 256) :
    broadcastTo S128x16x256 x hb (ix3 d h w) = x (ix3 (0 : Fin 1) h w) := by
  refine broadcastTo_apply x hb (ix3 d h w) (ix3 (0 : Fin 1) h w) fun a => ?_
  match a with
  | ⟨0, _⟩ => rfl
  | ⟨1, _⟩ => rfl
  | ⟨2, _⟩ => rfl

/-- The centre as a 128 × 1 × 1 column … -/
theorem centreCast_apply (x : S128.Idx → α) (hc : S128.ShapeCasts S128x1x1) (d : Fin 128) (u v : Fin 1) :
    shapeCast S128x1x1 x hc (ix3 d u v) = x (ix1 d) :=
  shapeCast_apply x hc _ _ (by
    have hu : u.val = 0 := by omega
    have hv : v.val = 0 := by omega
    rw [Shape.rowMajor_val_one, Shape.rowMajor_val_three]
    show d.val = (d.val * 1 + u.val) * 1 + v.val
    omega)

/-- … repeated over the rows and columns. -/
theorem centreBcast_apply (x : S128x1x1.Idx → α) (hb : S128x1x1.Broadcasts S128x16x256) (d : Fin 128) (h : Fin 16) (w : Fin 256) :
    broadcastTo S128x16x256 x hb (ix3 d h w) = x (ix3 d (0 : Fin 1) (0 : Fin 1)) := by
  refine broadcastTo_apply x hb (ix3 d h w) (ix3 d (0 : Fin 1) (0 : Fin 1)) fun a => ?_
  match a with
  | ⟨0, _⟩ => rfl
  | ⟨1, _⟩ => rfl
  | ⟨2, _⟩ => rfl

end Layout

/-! ## The reductions over the channel axis -/

/-- The index above `(h, w)` with channel `k` inserted is `(k, h, w)`. -/
theorem lift_chan (red : S128x16x256.Reduces [0] S16x256) (h : Fin 16) (w : Fin 256) (k : Fin 128) :
    red.lift (ix2 h w) k = ix3 k h w := by
  funext a
  apply Fin.ext
  match a with
  | ⟨0, _⟩ => rfl
  | ⟨1, _⟩ => rfl
  | ⟨2, _⟩ => rfl

/-- A sum over the channel axis, at `(h, w)`. -/
theorem chanSum_apply (v : FVec Ideal S128x16x256 .f32) (red : S128x16x256.Reduces [0] S16x256) (hφ : FKind.Formats .f32)
    (hacc : (0x00000000#32 : BitVec 32) = 0x00000000#32) (h : Fin 16) (w : Fin 256) :
    multiReduction .add [0] S16x256 v 0x00000000#32 red hφ hacc (ix2 h w) = ∑ k : Fin 128, v (ix3 k h w) := by
  refine (Ideal.multiReduction_add_single v _ red hφ hacc (ix2 h w)).trans ?_
  exact Finset.sum_congr rfl fun k _ => congrArg v (lift_chan _ h w k)

/-- A maximum over the channel axis, at `(h, w)`: the fold from -∞'s pattern. -/
theorem chanMax_apply (v : FVec Ideal S128x16x256 .f32) (red : S128x16x256.Reduces [0] S16x256) (hφ : FKind.Formats .f32)
    (hacc : (0xFF800000#32 : BitVec 32) = 0xFF800000#32) (h : Fin 16) (w : Fin 256) :
    multiReduction .maximumf [0] S16x256 v 0xFF800000#32 red hφ hacc (ix2 h w) = Dino.chanMax (fun k => v (ix3 k h w)) := by
  refine (Ideal.multiReduction_maximumf_single v _ red hφ hacc (ix2 h w)).trans ?_
  have e : (v ∘ red.lift (ix2 h w)) = fun k : Fin 128 => v (ix3 k h w) :=
    funext fun k => congrArg v (lift_chan _ h w k)
  rw [e]
  rfl

/-! ## The pointwise transcendentals at an index -/

section Pointwise
variable {s : Shape} {φ : FTy}
theorem sqrt_apply (a : FVec Ideal s φ) (i : s.Idx) : sqrt a i = Ideal.sqrt (a i) := rfl
theorem exp_apply (a : FVec Ideal s φ) (i : s.Idx) : exp a i = Ideal.exp (a i) := rfl
theorem log_apply (a : FVec Ideal s φ) (i : s.Idx) : log a i = Ideal.log (a i) := rfl
end Pointwise

/-! ## The body's named values at a pixel -/

/-- Reading a named value at a pixel: the pointwise and layout steps by rewriting wherever they stand, each channel
    reduction (a closed term once its index is `(h, w)`) by one rewrite, until nothing is left to push. -/
macro "read_at_pixel" : tactic =>
  `(tactic| repeat (first
      | rw [chanSum_apply]
      | rw [chanMax_apply]
      | simp only [divf_apply, subf_apply, mulf_apply, maximumf_apply, broadcast_apply, sqrt_apply, exp_apply, log_apply,
          sheetBcast_apply, addUnit_apply, dropUnit_apply, dropBatch_apply, centreBcast_apply, centreCast_apply]))

/-- The student's block, normalised and divided by its temperature, at `(d, h, w)`. -/
theorem pay2_apply (x1 : Vec Ideal S1x128x16x256 .f32) (d : Fin 128) (h : Fin 16) (w : Fin 256) :
    k0_pay2 (F := Ideal) x1 (ix3 d h w) = Dino.scaled Dino.tauS (fun k => x1 (ix4 (0 : Fin 1) k h w)) d := by
  unfold k0_pay2
  read_at_pixel
  rfl

/-- Its channel maximum, repeated along the channels. -/
theorem pay4_apply (x1 : Vec Ideal S1x128x16x256 .f32) (d : Fin 128) (h : Fin 16) (w : Fin 256) :
    k0_pay4 (F := Ideal) x1 (ix3 d h w) = Dino.chanMax (Dino.scaled Dino.tauS (fun k => x1 (ix4 (0 : Fin 1) k h w))) := by
  unfold k0_pay4
  read_at_pixel
  simp only [pay2_apply]

/-- The teacher's block minus the centre, normalised, divided by its temperature and put through the softmax. -/
theorem pay3_apply (x0 : Vec Ideal S128 .f32) (x2 : Vec Ideal S1x128x16x256 .f32) (d : Fin 128) (h : Fin 16) (w : Fin 256) :
    k0_pay3 (F := Ideal) x0 x2 (ix3 d h w)
      = Dino.softmax (Dino.scaled Dino.tauT (fun k => x2 (ix4 (0 : Fin 1) k h w) - x0 (ix1 k))) d := by
  unfold k0_pay3
  read_at_pixel
  rfl

/-- The stored sheet at `(u, h, w)`, from the three channel blocks and the mask's sheet: zero minus the channel sum of the
    softmax block times the shifted block less the logarithm of its exponentials' sum, times the mask's entry. -/
theorem pay1_apply (v27 v36 v39 : FVec Ideal S128x16x256 .f32) (v51 : Vec Ideal S1x16x256 .f32) (u : Fin 1) (h : Fin 16)
    (w : Fin 256) :
    k0_pay1 (F := Ideal) v27 v36 v39 v51 (ix3 u h w)
      = (Ideal.ofBits .f32 0x00000000#32
          - ∑ d : Fin 128, v36 (ix3 d h w) * (v27 (ix3 d h w) - v39 (ix3 d h w)
              - Ideal.log (∑ k : Fin 128, Ideal.exp (v27 (ix3 k h w) - v39 (ix3 k h w)))))
        * v51 (ix3 (0 : Fin 1) h w) := by
  unfold k0_pay1
  read_at_pixel
  rfl

/-- THE BLOCK AT A PIXEL: what the body stores at `(u, h, w)` is the pixel loss of the student's channel column and the
    teacher's centred one at `(h, w)`, times the mask's entry. -/
theorem block_apply (x0 : Vec Ideal S128 .f32) (x1 x2 : Vec Ideal S1x128x16x256 .f32) (x3 : Vec Ideal S1x16x256 .f32)
    (u : Fin 1) (h : Fin 16) (w : Fin 256) :
    k0_pay1 (F := Ideal) (k0_pay2 x1) (k0_pay3 x0 x2) (k0_pay4 x1) x3 (ix3 u h w)
      = Dino.pixLoss (fun k => x1 (ix4 (0 : Fin 1) k h w)) (fun k => x2 (ix4 (0 : Fin 1) k h w) - x0 (ix1 k))
          * x3 (ix3 (0 : Fin 1) h w) := by
  rw [pay1_apply]
  simp only [pay2_apply, pay3_apply, pay4_apply, Ideal.ofBits_zero_f32, Dino.zero_sub_ereal]
  rfl

end Cert.KernelIdeal.Pix

end
-- ==== Proof.KernelArr.lean ====
/-
  From the blocks to the array: what the region leaves in the masked-loss array.

  The grid is 8 × 16: point `(b, q)` works on image `b`, rows `16 q … 16 q + 15`. Its student and teacher blocks are all
  128 channels of those rows, its mask block and its output block the same rows of the 8 × 256 × 256 arrays, and the
  centre is fetched whole. So the block a point writes back is, entry by entry, the masked loss of the argument arrays
  at the pixel under it; the 128 output blocks tile the array; hence after the region the array IS the masked loss.
-/
import proofs.«110116_j62036507623554_1_alg».proof.Proof.Gen.KernelIdeal.Frame
import proofs.«110116_j62036507623554_1_alg».proof.Proof.KernelPix
import Idealize.ShloMosaic.Lib.Pipeline.Value

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Arr

open Cert.KernelIdeal Cert.KernelIdeal.Gen

variable (m : (ℓ : Loc nD τ sig) → Buf (Elt Ideal) ℓ)

theorem hz1 : (![0] : Fin 1 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The four arrays the region reads, as it finds them, each at its literal type. -/
abbrev stuArr (c : Dev nD) : Vec Ideal S8x128x256x256 .f32 := V m c main_arg0
abbrev teaArr (c : Dev nD) : Vec Ideal S8x128x256x256 .f32 := V m c main_arg1
abbrev ctrArr (c : Dev nD) : Vec Ideal S128 .f32 := V m c main_arg2
abbrev mskArr (c : Dev nD) : Vec Ideal S8x256x256 .f32 := V m c main_v5

/-- The printed index maps over the grid: the student's, the teacher's and the mask's blocks sit over the output's
    block (all channels, the same image and row band), the centre's block is the whole centre, and the output's block
    indices range over 8 images and 16 row bands. -/
theorem idx_facts : ∀ t : Fin cfg0.N,
    win0_0.index t (0 : Fin 1) = 0
    ∧ win0_1.index t (0 : Fin 4) = win0_4.index t (0 : Fin 3) ∧ win0_1.index t (1 : Fin 4) = 0
    ∧ win0_1.index t (2 : Fin 4) = win0_4.index t (1 : Fin 3) ∧ win0_1.index t (3 : Fin 4) = 0
    ∧ win0_2.index t (0 : Fin 4) = win0_4.index t (0 : Fin 3) ∧ win0_2.index t (1 : Fin 4) = 0
    ∧ win0_2.index t (2 : Fin 4) = win0_4.index t (1 : Fin 3) ∧ win0_2.index t (3 : Fin 4) = 0
    ∧ win0_3.index t (0 : Fin 3) = win0_4.index t (0 : Fin 3) ∧ win0_3.index t (1 : Fin 3) = win0_4.index t (1 : Fin 3)
    ∧ win0_3.index t (2 : Fin 3) = 0
    ∧ win0_4.index t (0 : Fin 3) ≤ 7 ∧ win0_4.index t (1 : Fin 3) ≤ 15 ∧ win0_4.index t (2 : Fin 3) = 0 :=
  (by decide +kernel : ∀ t : Fin grid0.N, _)

/-- Every (image, row band) pair is some point's. -/
theorem idx_onto : ∀ (q0 : Fin 8) (q1 : Fin 16), ∃ t : Fin cfg0.N, win0_4.index t = ![q0.val, q1.val, 0] :=
  (by decide +kernel : ∀ (q0 : Fin 8) (q1 : Fin 16), ∃ t : Fin grid0.N, win0_4.index t = ![q0.val, q1.val, 0])

/-- The array index under entry `(u, h, w)` of point `t`'s output block. -/
abbrev under (t : Fin cfg0.N) (u : Fin 1) (h : Fin 16) (w : Fin 256) : S8x256x256.Idx :=
  ((cfg0.win 4).blk t).view.emb (ix3 u h w)

/-- The student's block at `(0, k, h, w)` is the student array at channel `k` of the pixel under `(u, h, w)`. -/
theorem stu_read (c : Dev nD) (t : Fin cfg0.N) (u : Fin 1) (h : Fin 16) (w : Fin 256) (k : Fin 128) :
    (iblk m c 1 t : Vec Ideal S1x128x16x256 .f32) (ix4 (0 : Fin 1) k h w)
      = stuArr m c (ix4 (under t u h w 0) k (under t u h w 1) (under t u h w 2)) := by
  obtain ⟨-, e0, e1, e2, e3, -, -, -, -, -, -, -, -, -, e14⟩ := idx_facts t
  have hu : u.val = 0 := by omega
  unfold iblk
  rw [View.read_apply]
  show V m c main_arg0 (((cfg0.win 1).blk t).view.emb (ix4 (0 : Fin 1) k h w)) = V m c main_arg0 _
  refine congrArg (V m c main_arg0) (funext fun a => Fin.ext ?_)
  match a with
  | ⟨0, _⟩ => show win0_1.index t (0 : Fin 4) * 1 + 1 * 0 = win0_4.index t (0 : Fin 3) * 1 + 1 * u.val; omega
  | ⟨1, _⟩ => show win0_1.index t (1 : Fin 4) * 128 + 1 * k.val = k.val; omega
  | ⟨2, _⟩ => show win0_1.index t (2 : Fin 4) * 16 + 1 * h.val = win0_4.index t (1 : Fin 3) * 16 + 1 * h.val; omega
  | ⟨3, _⟩ => show win0_1.index t (3 : Fin 4) * 256 + 1 * w.val = win0_4.index t (2 : Fin 3) * 256 + 1 * w.val; omega

/-- The teacher's block likewise. -/
theorem tea_read (c : Dev nD) (t : Fin cfg0.N) (u : Fin 1) (h : Fin 16) (w : Fin 256) (k : Fin 128) :
    (iblk m c 2 t : Vec Ideal S1x128x16x256 .f32) (ix4 (0 : Fin 1) k h w)
      = teaArr m c (ix4 (under t u h w 0) k (under t u h w 1) (under t u h w 2)) := by
  obtain ⟨-, -, -, -, -, e0, e1, e2, e3, -, -, -, -, -, e14⟩ := idx_facts t
  have hu : u.val = 0 := by omega
  unfold iblk
  rw [View.read_apply]
  show V m c main_arg1 (((cfg0.win 2).blk t).view.emb (ix4 (0 : Fin 1) k h w)) = V m c main_arg1 _
  refine congrArg (V m c main_arg1) (funext fun a => Fin.ext ?_)
  match a with
  | ⟨0, _⟩ => show win0_2.index t (0 : Fin 4) * 1 + 1 * 0 = win0_4.index t (0 : Fin 3) * 1 + 1 * u.val; omega
  | ⟨1, _⟩ => show win0_2.index t (1 : Fin 4) * 128 + 1 * k.val = k.val; omega
  | ⟨2, _⟩ => show win0_2.index t (2 : Fin 4) * 16 + 1 * h.val = win0_4.index t (1 : Fin 3) * 16 + 1 * h.val; omega
  | ⟨3, _⟩ => show win0_2.index t (3 : Fin 4) * 256 + 1 * w.val = win0_4.index t (2 : Fin 3) * 256 + 1 * w.val; omega

/-- The centre's block is the centre. -/
theorem centre_read (c : Dev nD) (t : Fin cfg0.N) (k : Fin 128) :
    (iblk m c 0 t : Vec Ideal S128 .f32) (ix1 k) = ctrArr m c (ix1 k) := by
  obtain ⟨e0, -⟩ := idx_facts t
  unfold iblk
  rw [View.read_apply]
  show V m c main_arg2 (((cfg0.win 0).blk t).view.emb (ix1 k)) = V m c main_arg2 _
  refine congrArg (V m c main_arg2) (funext fun a => Fin.ext ?_)
  match a with
  | ⟨0, _⟩ => show win0_0.index t (0 : Fin 1) * 128 + 1 * k.val = k.val; omega

/-- The mask's block at `(0, h, w)` is the mask at the pixel under `(u, h, w)`. -/
theorem mask_read (c : Dev nD) (t : Fin cfg0.N) (u : Fin 1) (h : Fin 16) (w : Fin 256) :
    (iblk m c 3 t : Vec Ideal S1x16x256 .f32) (ix3 (0 : Fin 1) h w) = mskArr m c (under t u h w) := by
  obtain ⟨-, -, -, -, -, -, -, -, -, e0, e1, e2, -, -, e14⟩ := idx_facts t
  have hu : u.val = 0 := by omega
  unfold iblk
  rw [View.read_apply]
  show V m c main_v5 (((cfg0.win 3).blk t).view.emb (ix3 (0 : Fin 1) h w)) = V m c main_v5 _
  refine congrArg (V m c main_v5) (funext fun a => Fin.ext ?_)
  match a with
  | ⟨0, _⟩ => show win0_3.index t (0 : Fin 3) * 1 + 1 * 0 = win0_4.index t (0 : Fin 3) * 1 + 1 * u.val; omega
  | ⟨1, _⟩ => show win0_3.index t (1 : Fin 3) * 16 + 1 * h.val = win0_4.index t (1 : Fin 3) * 16 + 1 * h.val; omega
  | ⟨2, _⟩ => show win0_3.index t (2 : Fin 3) * 256 + 1 * w.val = win0_4.index t (2 : Fin 3) * 256 + 1 * w.val; omega

/-- The masked loss of the arrays as the region finds them. -/
abbrev lossArr (c : Dev nD) : Vec Ideal S8x256x256 .f32 :=
  Dino.maskedLoss (stuArr m c) (teaArr m c) (ctrArr m c) (mskArr m c)

/-- WHAT POINT `t` WRITES BACK is its block of the masked loss. -/
theorem flushed_eq (c : Dev nD) (t : Fin cfg0.N) :
    (dats m 0 c).flushed 4 t = ((cfg0.win 4).blk t).view.read (Elt Ideal) (lossArr m c) := by
  show (cfg0.win 4).cut (grid0.coords t) ((dats m 0 c).after 4 t) = _
  rw [after0_4]
  unfold out0_4
  rw [View.canon_unit_zero hz3]
  simp only [View.ld_unit_zero (S := S128) hz1, View.ld_unit_zero (S := S1x128x16x256) hz4, View.ld_unit_zero (S := S1x16x256) hz3]
  funext y
  obtain ⟨u, h, w, rfl⟩ : ∃ (u : Fin 1) (h : Fin 16) (w : Fin 256), y = ix3 u h w := ⟨y 0, y 1, y 2, eq_ix3 y⟩
  refine (Pix.block_apply (iblk m c 0 t) (iblk m c 1 t) (iblk m c 2 t) (iblk m c 3 t) u h w).trans ?_
  rw [View.read_apply]
  show _ = Dino.pixLoss (fun d => stuArr m c (ix4 (under t u h w 0) d (under t u h w 1) (under t u h w 2)))
      (fun d => teaArr m c (ix4 (under t u h w 0) d (under t u h w 1) (under t u h w 2)) - ctrArr m c (ix1 d))
      * mskArr m c (under t u h w)
  simp only [stu_read m c t u h w, tea_read m c t u h w, centre_read m c t, mask_read m c t u h w]

/-- An index of the array is in point `t`'s output block iff each coordinate is in the block's range on its axis. -/
theorem mem_blk (t : Fin cfg0.N) (i : S8x256x256.Idx) :
    i ∈ ((cfg0.win 4).blk t).view.set ↔ ∀ a : Fin 3, win0_4.index t a * S1x16x256.size a ≤ (i a).val
      ∧ (i a).val < win0_4.index t a * S1x16x256.size a + S1x16x256.size a := by
  show i ∈ ((View.whole main_v9).slice (win0_4.rect t)).set ↔ _
  rw [View.set_slice_whole, Rect.mem_set_unit]
  exact Iff.rfl

/-- The output blocks cover the array: pixel `(b, r, w)` lies in the block of the point with image `b` and row band `r / 16`. -/
theorem cover (i : S8x256x256.Idx) :
    ∃ t : Fin cfg0.N, (cfg0.win 4).flush t = true ∧ i ∈ ((cfg0.win 4).blk t).view.set := by
  have hi0 : (i 0).val < 8 := (i 0).isLt
  have hi1 : (i 1).val < 256 := (i 1).isLt
  have hi2 : (i 2).val < 256 := (i 2).isLt
  obtain ⟨t, ht⟩ := idx_onto ⟨(i 0).val, hi0⟩ ⟨(i 1).val / 16, by omega⟩
  have q0 : win0_4.index t (0 : Fin 3) = (i 0).val := congrFun ht 0
  have q1 : win0_4.index t (1 : Fin 3) = (i 1).val / 16 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 16 ≤ (i 1).val ∧ (i 1).val < win0_4.index t (1 : Fin 3) * 16 + 16; omega
  | ⟨2, _⟩ => show win0_4.index t (2 : Fin 3) * 256 ≤ (i 2).val ∧ (i 2).val < win0_4.index t (2 : Fin 3) * 256 + 256; omega

/-- THE ARRAY after the region: the masked loss of the arrays the region found. -/
theorem final (c : Dev nD) : (dats m 0 c).arrAt 4 cfg0.N = lossArr m c :=
  (dats m 0 c).arrAt_eq_of_cover 4 (lossArr m c) (fun t _ => flushed_eq m c t) cover

end Cert.KernelIdeal.Arr

end
-- ==== Proof.RefSide.lean ====
/-
  The reference, read at a pixel.

  The reference moves the channel axis last (8 × 256 × 256 × 128), subtracts the centre from the teacher along it, and then
  does everything over that last axis: the two clamped norms (a sum kept as a unit axis and spread back), the two
  temperatures, the teacher's softmax and the student's log-softmax (each maximum taken once more against -∞, which changes
  nothing), the channel sum of their product, the sign, the mask. Read at pixel `(b, r, w)` every stage depends on the two
  channel columns there only, and the result is the pixel loss times the mask's entry: the masked loss.
-/
import proofs.«110116_j62036507623554_1_alg».proof.Proof.RefRead
import proofs.«110116_j62036507623554_1_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.ReferenceIdeal.Side

open Cert.ReferenceIdeal Cert.ReferenceIdeal.ReadP

/-! ## The layout steps at an index -/

section Layout
variable {α : Type}

/-- The channel axis moved last: `(b, r, w, k)` reads `(b, k, r, w)`. -/
theorem chanLast_apply (x : S8x128x256x256.Idx → α) (ht : S8x128x256x256.Transposes [0, 2, 3, 1] S8x256x256x128) (b : Fin 8)
    (r w : Fin 256) (k : Fin 128) : transpose S8x256x256x128 [0, 2, 3, 1] x ht (ix4 b r w k) = x (ix4 b k r w) :=
  transpose_apply [0, 2, 3, 1] x ht (ix4 b r w k) (ix4 b k r w) (fun a => match a with
    | ⟨0, _⟩ => rfl
    | ⟨1, _⟩ => rfl
    | ⟨2, _⟩ => rfl
    | ⟨3, _⟩ => rfl)

/-- The centre laid along the last axis of a 1 × 1 × 1 × 128 array … -/
theorem centreRow_apply (x : S128.Idx → α) (hb : S128.BroadcastsInDim S1x1x1x128 ![3]) (u v z : Fin 1) (k : Fin 128) :
    broadcastInDim S1x1x1x128 ![3] hb x (ix4 u v z k) = x (ix1 k) :=
  broadcastInDim_apply _ hb x (ix4 u v z k) (ix1 k) (fun a => match a with
    | ⟨0, _⟩ => by show k.val = if (128 : Nat) = 1 then 0 else k.val; rw [if_neg (by decide)])

/-- … and repeated over every pixel. -/
theorem centreAll_apply (x : S1x1x1x128.Idx → α) (hb : S1x1x1x128.BroadcastsInDim S8x256x256x128 ![0, 1, 2, 3]) (b : Fin 8)
    (r w : Fin 256) (k : Fin 128) :
    broadcastInDim S8x256x256x128 ![0, 1, 2, 3] hb x (ix4 b r w k) = x (ix4 (0 : Fin 1) (0 : Fin 1) (0 : Fin 1) k) :=
  broadcastInDim_apply _ hb x (ix4 b r w k) (ix4 (0 : Fin 1) (0 : Fin 1) (0 : Fin 1) k) (fun a => match a with
    | ⟨0, _⟩ => by show 0 = if (1 : Nat) = 1 then 0 else b.val; rw [if_pos rfl]
    | ⟨1, _⟩ => by show 0 = if (1 : Nat) = 1 then 0 else r.val; rw [if_pos rfl]
    | ⟨2, _⟩ => by show 0 = if (1 : Nat) = 1 then 0 else w.val; rw [if_pos rfl]
    | ⟨3, _⟩ => by show k.val = if (128 : Nat) = 1 then 0 else k.val; rw [if_neg (by decide)])

/-- A per-pixel value kept with a unit channel axis … -/
theorem keepdim_apply (x : S8x256x256.Idx → α) (hb : S8x256x256.BroadcastsInDim S8x256x256x1 ![0, 1, 2]) (b : Fin 8)
    (r w : Fin 256) (u : Fin 1) : broadcastInDim S8x256x256x1 ![0, 1, 2] hb x (ix4 b r w u) = x (ix3 b r w) :=
  broadcastInDim_apply _ hb x (ix4 b r w u) (ix3 b r w) (fun a => match a with
    | ⟨0, _⟩ => by show b.val = if (8 : Nat) = 1 then 0 else b.val; rw [if_neg (by decide)]
    | ⟨1, _⟩ => by show r.val = if (256 : Nat) = 1 then 0 else r.val; rw [if_neg (by decide)]
    | ⟨2, _⟩ => by show w.val = if (256 : Nat) = 1 then 0 else w.val; rw [if_neg (by decide)])

/-- … and spread back along the channels. -/
theorem alongChan_apply (x : S8x256x256x1.Idx → α) (hb : S8x256x256x1.BroadcastsInDim S8x256x256x128 ![0, 1, 2, 3]) (b : Fin 8)
    (r w : Fin 256) (k : Fin 128) :
    broadcastInDim S8x256x256x128 ![0, 1, 2, 3] hb x (ix4 b r w k) = x (ix4 b r w (0 : Fin 1)) :=
  broadcastInDim_apply _ hb x (ix4 b r w k) (ix4 b r w (0 : Fin 1)) (fun a => match a with
    | ⟨0, _⟩ => by show b.val = if (8 : Nat) = 1 then 0 else b.val; rw [if_neg (by decide)]
    | ⟨1, _⟩ => by show r.val = if (256 : Nat) = 1 then 0 else r.val; rw [if_neg (by decide)]
    | ⟨2, _⟩ => by show w.val = if (256 : Nat) = 1 then 0 else w.val; rw [if_neg (by decide)]
    | ⟨3, _⟩ => by show 0 = if (1 : Nat) = 1 then 0 else k.val; rw [if_pos rfl])

/-- A scalar spread over any shape reads the scalar. -/
theorem splat_apply {t : Shape} (x : S_.Idx → α) (hb : S_.BroadcastsInDim t ![]) (i : t.Idx) :
    broadcastInDim t ![] hb x i = x ix0 :=
  broadcastInDim_apply _ hb x i ix0 (fun a => a.elim0)

end Layout

/-! ## The reductions over the channel axis -/

/-- The index over pixel `(b, r, w)` with channel `k` inserted last. -/
theorem lift_chan (red : S8x256x256x128.Reduces [3] S8x256x256) (b : Fin 8) (r w : Fin 256) (k : Fin 128) :
    red.lift (ix3 b r w) k = ix4 b r w k := by
  funext a
  apply Fin.ext
  match a with
  | ⟨0, _⟩ => rfl
  | ⟨1, _⟩ => rfl
  | ⟨2, _⟩ => rfl
  | ⟨3, _⟩ => rfl

/-- A host sum over the channel axis from zero's pattern, at a pixel: the plain sum. -/
theorem chanSum_apply (x : FVec Ideal S8x256x256x128 .f32) (h' : S8x256x256x128.ReducesTo [3] S8x256x256) (hS : 0 < S_.numel)
    (b : Fin 8) (r w : Fin 256) :
    Host.reduceAdd x (constant (F := Ideal) S_ .f32 0x00000000#32) h' hS (ix3 b r w) = ∑ k : Fin 128, x (ix4 b r w k) := by
  have red : S8x256x256x128.Reduces [3] S8x256x256 := by decide
  simp only [Host.reduceAdd, Ideal.hostReduceAdd_def]
  rw [Ideal.hostReduceAdd_single h' red]
  show Ideal.ofBits .f32 0x00000000#32 + _ = _
  rw [Ideal.ofBits_zero_f32, zero_add]
  exact Finset.sum_congr rfl fun k _ => congrArg x (lift_chan red b r w k)

/-- A host maximum over the channel axis from -∞'s pattern, at a pixel: the fold. -/
theorem chanMax_apply (x : FVec Ideal S8x256x256x128 .f32) (h' : S8x256x256x128.ReducesTo [3] S8x256x256) (hS : 0 < S_.numel)
    (b : Fin 8) (r w : Fin 256) :
    Host.reduce FloatOps.maximumf x (constant (F := Ideal) S_ .f32 0xFF800000#32) h' hS (ix3 b r w)
      = Dino.chanMax (fun k => x (ix4 b r w k)) := by
  have red : S8x256x256x128.Reduces [3] S8x256x256 := by decide
  rw [Host.reduce_eq_fold_single FloatOps.maximumf x _ h' red hS]
  have e : (x ∘ red.lift (ix3 b r w)) = fun k : Fin 128 => x (ix4 b r w k) :=
    funext fun k => congrArg x (lift_chan red b r w k)
  rw [e]
  rfl

/-- The channel maximum of every pixel's column, as an array. -/
def chanMaxArr (x : FVec Ideal S8x256x256x128 .f32) : FVec Ideal S8x256x256 .f32 :=
  fun j => Dino.chanMax (fun k => x (ix4 (j 0) (j 1) (j 2) k))

theorem chanMaxArr_apply (x : FVec Ideal S8x256x256x128 .f32) (b : Fin 8) (r w : Fin 256) :
    chanMaxArr x (ix3 b r w) = Dino.chanMax (fun k => x (ix4 b r w k)) := rfl

/-- The host maximum over the channel axis, from -∞'s pattern, is that array. -/
theorem chanMax_eq (x : FVec Ideal S8x256x256x128 .f32) (h' : S8x256x256x128.ReducesTo [3] S8x256x256) (hS : 0 < S_.numel) :
    Host.reduce FloatOps.maximumf x (constant (F := Ideal) S_ .f32 0xFF800000#32) h' hS = chanMaxArr x := by
  funext j
  obtain ⟨b, r, w, rfl⟩ : ∃ (b : Fin 8) (r w : Fin 256), j = ix3 b r w := ⟨j 0, j 1, j 2, eq_ix3 j⟩
  exact chanMax_apply x h' hS b r w

/-! ## The pointwise host operations at an index -/

section Pointwise
variable {s : Shape} {φ : FTy}
theorem hdivf_apply (a c : FVec Ideal s φ) (i : s.Idx) : Host.divf a c i = Ideal.div (a i) (c i) := rfl
theorem hsqrt_apply (a : FVec Ideal s φ) (i : s.Idx) : Host.sqrt a i = Ideal.sqrt (a i) := rfl
theorem hexp_apply (a : FVec Ideal s φ) (i : s.Idx) : Host.exp a i = Ideal.exp (a i) := rfl
theorem hlog_apply (a : FVec Ideal s φ) (i : s.Idx) : Host.log a i = Ideal.log (a i) := rfl
theorem hnegf_apply (a : FVec Ideal s φ) (i : s.Idx) : Host.negf a i = -(a i) := rfl
end Pointwise

/-- Reading a stage at a pixel: the pointwise and layout steps wherever they stand, each channel reduction (closed once
    its index is the pixel) by one rewrite, until nothing is left to push. -/
macro "read_at_pixel" : tactic =>
  `(tactic| repeat (first
      | rw [chanSum_apply]
      | simp only [hdivf_apply, hsqrt_apply, hexp_apply, hlog_apply, hnegf_apply, subf_apply, mulf_apply, maximumf_apply,
          constant_apply, chanLast_apply _, centreRow_apply _, centreAll_apply _, keepdim_apply _, alongChan_apply _,
          splat_apply _, chanMaxArr_apply]))

/-! ## The stages at a pixel -/

/-- The student's column, channel axis last. -/
theorem stu_apply (x0 : FVec Ideal S8x128x256x256 .f32) (b : Fin 8) (r w : Fin 256) (k : Fin 128) :
    val_main_v8 (F := Ideal) x0 (ix4 b r w k) = x0 (ix4 b k r w) := by
  unfold val_main_v8
  read_at_pixel

/-- The teacher's column with the centre subtracted. -/
theorem tea_apply (x1 : FVec Ideal S8x128x256x256 .f32) (x2 : FVec Ideal S128 .f32) (b : Fin 8) (r w : Fin 256) (k : Fin 128) :
    val_main_v12 (F := Ideal) x1 x2 (ix4 b r w k) = x1 (ix4 b k r w) - x2 (ix1 k) := by
  unfold val_main_v12 val_main_v11 val_main_v10 val_main_v9
  read_at_pixel

/-- The student's column normalised and divided by its temperature. -/
theorem stuScaled_apply (x0 : FVec Ideal S8x128x256x256 .f32) (b : Fin 8) (r w : Fin 256) (k : Fin 128) :
    val_main_v43 (F := Ideal) x0 (ix4 b r w k) = Dino.scaled Dino.tauS (fun d => x0 (ix4 b d r w)) k := by
  unfold val_main_v43 val_main_v42 val_main_cst_8 val_main_v20 val_main_v19 val_main_v18 val_main_v17 val_main_cst_1 val_main_v16
    val_main_v15 val_main_v14 val_main_cst_0 val_main_v13
  read_at_pixel
  simp only [stu_apply]
  rfl

/-- The teacher's centred column normalised and divided by its temperature. -/
theorem teaScaled_apply (x1 : FVec Ideal S8x128x256x256 .f32) (x2 : FVec Ideal S128 .f32) (b : Fin 8) (r w : Fin 256) (k : Fin 128) :
    val_main_v30 (F := Ideal) x1 x2 (ix4 b r w k)
      = Dino.scaled Dino.tauT (fun d => x1 (ix4 b d r w) - x2 (ix1 d)) k := by
  unfold val_main_v30 val_main_v29 val_main_cst_4 val_main_v28 val_main_v27 val_main_v26 val_main_v25 val_main_cst_3 val_main_v24
    val_main_v23 val_main_v22 val_main_cst_2 val_main_v21
  read_at_pixel
  simp only [tea_apply]
  rfl

/-- The teacher's softmax. -/
theorem teaSoftmax_apply (x1 : FVec Ideal S8x128x256x256 .f32) (x2 : FVec Ideal S128 .f32) (b : Fin 8) (r w : Fin 256) (k : Fin 128) :
    val_main_v41 (F := Ideal) x1 x2 (ix4 b r w k)
      = Dino.softmax (Dino.scaled Dino.tauT (fun d => x1 (ix4 b d r w) - x2 (ix1 d))) k := by
  unfold val_main_v41 val_main_v40 val_main_v39 val_main_v38 val_main_cst_7 val_main_v37 val_main_v36 val_main_v35 val_main_v34
    val_main_v33 val_main_v32 val_main_cst_6 val_main_v31 val_main_cst_5
  rw [chanMax_eq]
  read_at_pixel
  simp only [teaScaled_apply, Dino.max_negInf_chanMax]
  rfl

/-- The student's log-softmax. -/
theorem stuLogSoftmax_apply (x0 : FVec Ideal S8x128x256x256 .f32) (b : Fin 8) (r w : Fin 256) (k : Fin 128) :
    val_main_v44 (F := Ideal) x0 (ix4 b r w k) = Dino.logSoftmax (Dino.scaled Dino.tauS (fun d => x0 (ix4 b d r w))) k := by
  unfold val_main_v44 val_main_call0_v10 val_main_call0_v9 val_main_call0_v8 val_main_call0_v7 val_main_call0_cst_1 val_main_call0_v6
    val_main_call0_v5 val_main_call0_v4 val_main_call0_v3 val_main_call0_v2 val_main_call0_v1 val_main_call0_cst_0 val_main_call0_v0
    val_main_call0_cst
  rw [chanMax_eq]
  read_at_pixel
  simp only [stuScaled_apply, Dino.max_negInf_chanMax]
  rfl

/-- The loss at a pixel. -/
theorem loss_apply (x0 x1 : FVec Ideal S8x128x256x256 .f32) (x2 : FVec Ideal S128 .f32) (b : Fin 8) (r w : Fin 256) :
    val_main_v47 (F := Ideal) x0 x1 x2 (ix3 b r w)
      = Dino.pixLoss (fun d => x0 (ix4 b d r w)) (fun d => x1 (ix4 b d r w) - x2 (ix1 d)) := by
  unfold val_main_v47 val_main_v46 val_main_cst_9 val_main_v45
  read_at_pixel
  simp only [teaSoftmax_apply, stuLogSoftmax_apply]
  rfl

/-- THE REFERENCE'S MASKED LOSS is the masked loss of its arguments (the mask the converted valid-pixel bit). -/
theorem maskedLoss_eq (x0 x1 : FVec Ideal S8x128x256x256 .f32) (x2 : FVec Ideal S128 .f32) (x3 : IVec S8x256x256 1)
    (x4 : FVec Ideal S8x1x256x256 .f32) :
    val_main_v49 (F := Ideal) x0 x1 x2 x3 x4 = Dino.maskedLoss x0 x1 x2 (val_main_v48 (F := Ideal) x3 x4) := by
  funext i
  obtain ⟨b, r, w, rfl⟩ : ∃ (b : Fin 8) (r w : Fin 256), i = ix3 b r w := ⟨i 0, i 1, i 2, eq_ix3 i⟩
  unfold val_main_v49
  rw [mulf_apply, loss_apply]
  rfl

end Cert.ReferenceIdeal.Side

end
-- ==== Proof.Bridge.lean ====
/-
  The two results as one term.

  After the masked loss both programs do the same few host steps: sum the masked loss per image, divide by the image's
  count of valid pixels (at least one), average over the images that have a valid pixel (at least one image), and answer
  zero when no pixel is valid anywhere. The counts and the mask come from the same host steps on the same two
  arguments before either program's main part. So once the kernel's array and the reference's stage are both the
  masked loss of the arguments, the two scalars are one term: the shared tail of that array and the counts.
-/
import proofs.«110116_j62036507623554_1_alg».proof.Defs
import proofs.«110116_j62036507623554_1_alg».proof.Proof.KernelArr
import proofs.«110116_j62036507623554_1_alg».proof.Proof.RefSide
import Idealize.ShloMosaic.Lib.StableHlo.Run
import Idealize.ShloMosaic.Lib.Pipeline.FrameSuffix

set_option maxRecDepth 16384

noncomputable section

open Idealize.ShloMosaic Idealize.ShloMosaic.TcCoe Idealize.ShloMosaic.ValueIdx Idealize.SL.Sem Idealize.ShloMosaic.StableHlo
open Idealize.ShloMosaic.Pipeline (Dat)

namespace Cert.Bridge

/-! ## The shared tail -/

section Tail
open Cert.ReferenceIdeal Cert.ReferenceIdeal.Gen

/-- From the masked loss `L` and the per-image counts `cnt`: the mean over the images with a valid pixel of each image's
    mean masked loss, or zero when there is no valid pixel at all. -/
def tail (L : FVec Ideal S8x256x256 .f32) (cnt : FVec Ideal S8 .f32) : FVec Ideal S_ .f32 :=
  select
    (cmpf (F := Ideal) .ogt (Host.reduceAdd cnt (constant (F := Ideal) S_ .f32 0x00000000#32) reducesTo_S8_S_d0 h_S_)
      (constant (F := Ideal) S_ .f32 0x00000000#32))
    (Host.divf
      (Host.reduceAdd
        (mulf
          (Host.divf (Host.reduceAdd L (constant (F := Ideal) S_ .f32 0x00000000#32) reducesTo_S8x256x256_S8_d1_2 h_S_)
            (maximumf cnt (broadcastInDim S8 ![] bcast_S_S8 (constant (F := Ideal) S_ .f32 0x3F800000#32))))
          (uitofp (F := Ideal) .f32
            (cmpf (F := Ideal) .ogt cnt (broadcastInDim S8 ![] bcast_S_S8 (constant (F := Ideal) S_ .f32 0x00000000#32)))))
        (constant (F := Ideal) S_ .f32 0x00000000#32) reducesTo_S8_S_d0 h_S_)
      (maximumf
        (Host.reduceAdd
          (uitofp (F := Ideal) .f32
            (cmpf (F := Ideal) .ogt cnt (broadcastInDim S8 ![] bcast_S_S8 (constant (F := Ideal) S_ .f32 0x00000000#32))))
          (constant (F := Ideal) S_ .f32 0x00000000#32) reducesTo_S8_S_d0 h_S_)
        (constant (F := Ideal) S_ .f32 0x3F800000#32)))
    (constant (F := Ideal) S_ .f32 0x00000000#32)

/-- The reference's result is the tail of its masked-loss stage and its counts. -/
theorem ref_tail (x0 x1 : FVec Ideal S8x128x256x256 .f32) (x2 : FVec Ideal S128 .f32) (x3 : IVec S8x256x256 1)
    (x4 : FVec Ideal S8x1x256x256 .f32) :
    ReadP.val_main_v64 (F := Ideal) x0 x1 x2 x3 x4
      = tail (ReadP.val_main_v49 (F := Ideal) x0 x1 x2 x3 x4) (ReadP.val_main_v7 (F := Ideal) x3 x4) := rfl

end Tail

/-! ## The kernel's program -/

section Kernel
open Cert.KernelIdeal Cert.KernelIdeal.Gen

variable (m : (ℓ : Loc nD τ sig) → Buf (Elt Ideal) ℓ)

/-- The host steps after the region, from any contents: the tail of what the masked-loss buffer and the counts' buffer hold. -/
theorem tail_after (W : Valuation τ sig (Elt Ideal)) :
    StableHlo.after (List.flatten [hostOps1, hostOps1_1]) W (Proc.devRef .tc main_v24)
      = tail (W (Proc.devRef .tc main_v9)) (W (Proc.devRef .tc main_v8)) := by
  simp only [hostOps1, hostOps1_1, List.flatten_cons, List.flatten_nil, List.append_nil, List.cons_append, List.nil_append]
  simp (disch := decide) only [after_cons, after_nil, nullary_result', unary_result', binary_result', ternary_result',
    quaternary_result', reshape_result', nullary_result_ne', unary_result_ne', binary_result_ne', ternary_result_ne',
    quaternary_result_ne', reshape_result_ne', TRef.ofBuf, TRef.toBuf, cast_eq]
  rfl

/-- The mask the region finds is the reference's converted valid-pixel bit of the same two arguments. -/
theorem mask_eq (c : Dev nD) :
    Arr.mskArr m c = Cert.ReferenceIdeal.ReadP.val_main_v48 (F := Ideal) (m ((c.tc : Thread nD τ).loc main_arg3)) (m ((c.tc : Thread nD τ).loc main_arg4)) := by
  show StableHlo.after hostOps0 (fun b => m (c, b)) (Proc.devRef .tc main_v5) = _
  after_results
  rfl

/-- The counts the tail reads are the reference's counts of the same two arguments. -/
theorem counts_eq (c : Dev nD) :
    V m c main_v8 = Cert.ReferenceIdeal.ReadP.val_main_v7 (F := Ideal) (m ((c.tc : Thread nD τ).loc main_arg3)) (m ((c.tc : Thread nD τ).loc main_arg4)) := by
  show StableHlo.after hostOps0 (fun b => m (c, b)) (Proc.devRef .tc main_v8) = _
  after_results
  rfl

/-- What @main's result buffer holds after the run, as the tail of the masked loss of the ARGUMENTS and their counts. -/
abbrev result (c : Dev nD) : FVec Ideal Cert.ReferenceIdeal.S_ .f32 :=
  tail (Dino.maskedLoss (m ((c.tc : Thread nD τ).loc main_arg0)) (m ((c.tc : Thread nD τ).loc main_arg1))
      (m ((c.tc : Thread nD τ).loc main_arg2))
      (Cert.ReferenceIdeal.ReadP.val_main_v48 (F := Ideal) (m ((c.tc : Thread nD τ).loc main_arg3)) (m ((c.tc : Thread nD τ).loc main_arg4))))
    (Cert.ReferenceIdeal.ReadP.val_main_v7 (F := Ideal) (m ((c.tc : Thread nD τ).loc main_arg3)) (m ((c.tc : Thread nD τ).loc main_arg4)))

/-- The frame run's tail value at the result buffer is that. -/
theorem kernel_result (c : Dev nD) :
    Pipeline.afterTail₀ cfgs (dats m) 0 (V0 m) [hostOps1, hostOps1_1] c main_v24 = result m c := by
  unfold Pipeline.afterTail₀
  refine (tail_after _).trans ?_
  have h9 := (Pipeline.withArrays_arr spec0 launch0.win.arr_inj c (V0 m c) (fun w => (dats m 0 c).arrAt w cfg0.N) 4).trans (Arr.final m c)
  have h8 := Pipeline.withArrays_of_ne spec0 c (V0 m c) (fun w => (dats m 0 c).arrAt w cfg0.N) main_v8 (by decide)
  refine (congrArg₂ tail h9 h8).trans ?_
  show tail (Dino.maskedLoss (Arr.stuArr m c) (Arr.teaArr m c) (Arr.ctrArr m c) (Arr.mskArr m c)) (V m c main_v8) = _
  rw [mask_eq, counts_eq]
  show tail (Dino.maskedLoss (V m c main_arg0) (V m c main_arg1) (V m c main_arg2) _) _ = _
  rw [V_main_arg0, V_main_arg1, V_main_arg2]

/-- THE KERNEL'S POST: from the frame run's post, the result buffer at `result` and the five arguments as launched. -/
theorem kernel_post (r : PUnit × MemSt nD τ sig (Elt Ideal))
    (h : Pipeline.FramePost cfgs (dats m) 0 (Pipeline.afterTail₀ cfgs (dats m) 0 (V0 m) [hostOps1, hostOps1_1]) r) (c : Dev nD) :
    r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_v24 (Pipeline.mem_restRefs_of main_v24 (by decide) (by decide))).trans (kernel_result m c),
    ((h c).1 1).trans (((dats m 0 c).arrAt_in 1 rfl _).trans ((A_eq m c 1).trans (V_main_arg0 m c))),
    ((h c).1 2).trans (((dats m 0 c).arrAt_in 2 rfl _).trans ((A_eq m c 2).trans (V_main_arg1 m c))),
    ((h c).1 0).trans (((dats m 0 c).arrAt_in 0 rfl _).trans ((A_eq m c 0).trans (V_main_arg2 m c))),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c))⟩

end Kernel

end Cert.Bridge

end
-- ==== Proof.lean ====
/-
  The pixelwise self-distillation loss as one tiled kernel against its plain reference, over the extended reals.

  Both programs first make, from the mask and the original image, the 0/1 array of valid pixels and the count of valid
  pixels per image. The kernel then works on a grid of 8 images × 16 bands of 16 rows: at a point it has all 128 channels
  of the band for the student and for the teacher, the centre, and the band of the valid-pixel array, and it writes the
  band of the masked loss — at each pixel the student's and the centred teacher's channel columns are each divided by
  their clamped Euclidean norm and by their temperature, the teacher's goes through a softmax and the student's through
  a log-softmax, and minus the channel sum of the product is multiplied by the valid-pixel entry. The reference does
  the same with the channel axis moved last and every reduction along it. After that both programs average: per image
  over its valid pixels, then over the images that have one, with zero when nothing is valid.

  The proof: one function `Dino.maskedLoss` of the argument arrays (Proof/Spec.lean); the kernel's block at a pixel is
  that function there (Proof/KernelPix.lean), the blocks tile the array, so the array after the region is the function
  (Proof/KernelArr.lean); the reference's stage before the averaging is the same function (Proof/RefSide.lean); the
  averaging is one shared term of that array and the counts (Proof/Bridge.lean). No law beyond the order-free reading
  of a sum and of a maximum is used, so the precondition is never opened. The ideal pass rewrote nothing, so
  `preserves` is `True`.
-/
import proofs.«110116_j62036507623554_1_alg».proof.Defs
import proofs.«110116_j62036507623554_1_alg».proof.Proof.Gen.Kernel
import proofs.«110116_j62036507623554_1_alg».proof.Proof.Gen.Kernel.Frame
import proofs.«110116_j62036507623554_1_alg».proof.Proof.Gen.KernelIdeal
import proofs.«110116_j62036507623554_1_alg».proof.Proof.Gen.KernelIdeal.Frame
import proofs.«110116_j62036507623554_1_alg».proof.Proof.Gen.ReferenceIdeal
import proofs.«110116_j62036507623554_1_alg».proof.Proof.Gen.Pre_finite_inputs
import proofs.«110116_j62036507623554_1_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- From memories that agree on the five arguments both programs end with the shared averaging of the masked loss of
    those arguments and their counts: the kernel's side read off its frame run, the reference's off its run, stage by
    stage. -/
theorem algebraic : Cert.algebraic_KernelIdeal_ReferenceIdeal := by
  intro m ρ m' ρ' _ hagree
  refine ⟨fun c => Cert.Bridge.result m c, ?_, ?_⟩
  · exact (θ_run Cert.KernelIdeal.defs _ _).mono (fun r h c => Cert.Bridge.kernel_post m r h c)
      (Cert.KernelIdeal.Gen.run_main m ρ)
  · refine (θ_run Cert.ReferenceIdeal.defs _ _).mono (fun r h c => ⟨(h c).1.trans ?_, (h c).2⟩)
      (Cert.ReferenceIdeal.RunP.run (F := Ideal) m' ρ')
    rw [Cert.ReferenceIdeal.ReadP.val_main_v64_eq, Cert.Bridge.ref_tail, Cert.ReferenceIdeal.Side.maskedLoss_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
